-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S1024x256 .f32) (main_arg1 : FVec F S256x256 .f32) (main_arg2 : FVec F S256x256 .f32) (main_arg3 : FVec F S256x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S1024x256 : Shape := ⟨2, ![1024, 256]⟩
abbrev S256x256 : Shape := ⟨2, ![256, 256]⟩
abbrev S256x1024 : Shape := ⟨2, ![256, 1024]⟩
abbrev S16x1024 : Shape := ⟨2, ![16, 1024]⟩
abbrev S1x256 : Shape := ⟨2, ![1, 256]⟩
abbrev S1024 : Shape := ⟨1, ![1024]⟩
abbrev S1x1024 : Shape := ⟨2, ![1, 1024]⟩

abbrev nBuf : Space → Nat
  | .hbm => 13
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S1024x256, .bf16⟩
  | .hbm, ⟨5, _⟩ => ⟨S256x256, .f32⟩
  | .hbm, ⟨6, _⟩ => ⟨S256x256, .bf16⟩
  | .hbm, ⟨7, _⟩ => ⟨S256x256, .f32⟩
  | .hbm, ⟨8, _⟩ => ⟨S256x256, .bf16⟩
  | .hbm, ⟨9, _⟩ => ⟨S256x256, .f32⟩
  | .hbm, ⟨10, _⟩ => ⟨S256x256, .bf16⟩
  | .hbm, ⟨11, _⟩ => ⟨S256x1024, .f32⟩
  | .hbm, ⟨12, _⟩ => ⟨S1024x256, .f32⟩
  | .local _ .vmem, ⟨0, _⟩ => ⟨S1024x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S16x1024, .f32⟩
  | .local _ .vmem, ⟨5, _⟩ => ⟨S16x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  iota_S1x256_d1_w32 : S1x256.Iotas .tc 32 [1]
  natLt_1_32 : 1 < 32
  broadcasts_S1x256_S1024x256 : S1x256.Broadcasts S1024x256
  reduces_S1024x256_S1024 : S1024x256.Reduces [1] S1024
  shapeCasts_S1024_S1x1024 : S1024.ShapeCasts S1x1024
  concatenates_S1x1024_S1x1024_S1x1024_S1x1024_S1x1024_S1x1024_S1x1024_S1x1024_S1x1024_S1x1024_S1x1024_S1x1024_S1x1024_S1x1024_S1x1024_S1x1024_S16x1024_d0 : Shape.Concatenates [S1x1024, S1x1024, S1x1024, S1x1024, S1x1024, S1x1024, S1x1024, S1x1024, S1x1024, S1x1024, S1x1024, S1x1024, S1x1024, S1x1024, S1x1024, S1x1024] S16x1024 0
  inb_S16x1024_S16x1024_0_0 : ∀ a, (![0, 0] : Fin 2 → Nat) a + S16x1024.size a ≤ S16x1024.size a
  h_S16x1024 : 0 < S16x1024.numel
  transposes_S256x1024_S1024x256_1_0 : S256x1024.Transposes [1, 0] S1024x256
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .bf16 = 32 ∨ (Rect.block (s := S1024x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S256x1024.size a
  hwx0_4 : ∀ i : grid0.Coords, EltTy.bits .f32 = 32 ∨ (Rect.block (s := S256x1024) S16x1024.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x256 : Shape := ⟨2, ![256, 256]⟩
abbrev S_ : Shape := ⟨0, ![]⟩
abbrev S1x1024x256 : Shape := ⟨3, ![1, 1024, 256]⟩
abbrev S256x1x256 : Shape := ⟨3, ![256, 1, 256]⟩
abbrev S256x1024x256 : Shape := ⟨3, ![256, 1024, 256]⟩

abbrev nBuf : Space → Nat
  | .hbm => 34
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .i32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S1x1024x256, .f32⟩
  | .hbm, ⟨15, _⟩ => ⟨S256x1x256, .f32⟩
  | .hbm, ⟨16, _⟩ => ⟨S256x1024x256, .f32⟩
  | .hbm, ⟨17, _⟩ => ⟨S256x1024x256, .f32⟩
  | .hbm, ⟨18, _⟩ => ⟨S256x1024x256, .f32⟩
  | .hbm, ⟨19, _⟩ => ⟨S256x1024x256, .f32⟩
  | .hbm, ⟨20, _⟩ => ⟨S256x1024x256, .f32⟩
  | .hbm, ⟨21, _⟩ => ⟨S256x1024x256, .f32⟩
  | .hbm, ⟨22, _⟩ => ⟨S256x1024x256, .f32⟩
  | .hbm, ⟨23, _⟩ => ⟨S256x1024x256, .f32⟩
  | .hbm, ⟨24, _⟩ => ⟨S256x1024x256, .f32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x1024x256, .i1⟩
  | .hbm, ⟨29, _⟩ => ⟨S_, .f32⟩
  | .hbm, ⟨30, _⟩ => ⟨S256x1024x256, .f32⟩
  | .hbm, ⟨31, _⟩ => ⟨S256x1024x256, .f32⟩
  | .hbm, ⟨32, _⟩ => ⟨S_, .f32⟩
  | .hbm, ⟨33, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S1024x256_S1x1024x256_1_2 : S1024x256.BroadcastsInDim S1x1024x256 (![1, 2] : Fin 2 → Fin S1x1024x256.rank)
  bcast_S256x256_S256x1x256_0_2 : S256x256.BroadcastsInDim S256x1x256 (![0, 2] : Fin 2 → Fin S256x1x256.rank)
  bcast_S1x1024x256_S256x1024x256_0_1_2 : S1x1024x256.BroadcastsInDim S256x1024x256 (![0, 1, 2] : Fin 3 → Fin S256x1024x256.rank)
  bcast_S256x1x256_S256x1024x256_0_1_2 : S256x1x256.BroadcastsInDim S256x1024x256 (![0, 1, 2] : Fin 3 → Fin S256x1024x256.rank)
  bcast_S256x256_S256x1024x256_0_2 : S256x256.BroadcastsInDim S256x1024x256 (![0, 2] : Fin 2 → Fin S256x1024x256.rank)
  bcast_S_S256x1024x256 : S_.BroadcastsInDim S256x1024x256 (![] : Fin 0 → Fin S256x1024x256.rank)
  reducesTo_S256x1024x256_S1024x256_d0 : S256x1024x256.ReducesTo [0] S1024x256
  h_S_ : 0 < S_.numel
  dot_S256x1024x256_S256x256_S256x1024x256_2_1_01_0_n_n_wf : DotDims.WF S256x1024x256 S256x256 S256x1024x256 [2] [1] [0, 1] [0] [] []

variable [Facts₀]

def dot_S256x1024x256_S256x256_S256x1024x256_2_1_01_0_n_n : DotDims S256x1024x256 S256x256 S256x1024x256 where
  lhsContracting := [2]
  rhsContracting := [1]
  lhsNonContracting := [0, 1]
  rhsNonContracting := [0]
  lhsBatch := []
  rhsBatch := []
  wf := dot_S256x1024x256_S256x256_S256x1024x256_2_1_01_0_n_n_wf

class Facts : Prop extends Facts₀ where

variable [Facts]
-- ==== Proof.NodeColumn.lean ====
/-
  The value both programs compute, stated once over the extended reals, with the little algebra that joins them.

  For node `i` and batch row `b` the masked row is `n ↦ X b n · keep i n` (column `i` zeroed), it goes through
  three layers `h ↦ (m ↦ tanh (∑ n, h n · A m n))` (`A m n` the weight from input `n` to output `m`), and entry
  `(b, i)` of the result is output `i` of that: `column X A0 A1 A2 i b i`.

  The kernel picks that output by a product with the one-hot row `pick i` summed over the lanes; the reference keeps
  the diagonal of a [256, 1024, 256] array by a select against zero summed over the leading axis. On the extended
  reals `y · 0 = 0` and `y · 1 = y` for every `y`, so both sums have one term (`sum_mul_pick`, `zero_add_sum_diag`)
  and no finiteness is needed. The masks themselves are words: a lane number compared with the node number, widened and
  converted (`keep_word`, `pick_word`), or a one-bit compare converted unsigned and taken from `1.0`
  (`one_sub_eq_word`); below 256 two numbers are the same 32-bit word only if equal (`ofNat_eq_iff`).
-/
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.NodeColumn

open Idealize.ShloMosaic Idealize.ShloMosaic.ValueIdx

/-! ## The specification -/

/-- `0` at the node's own column, `1` elsewhere: the factor that zeroes column `i` of a row. -/
def keep (i n : Fin 256) : EReal := if n = i then 0 else 1

/-- `1` at the node's own column, `0` elsewhere: the one-hot row. -/
def pick (i n : Fin 256) : EReal := if n = i then 1 else 0

/-- One linear layer followed by `tanh`; `A m n` is the weight from input `n` to output `m`. -/
def layer (A : Fin 256 → Fin 256 → EReal) (h : Fin 256 → EReal) (m : Fin 256) : EReal :=
  Ideal.tanh (∑ n : Fin 256, h n * A m n)

/-- Node `i`'s network on batch row `b`: column `i` of the row zeroed, then the three layers. -/
def column (X : Fin 1024 → Fin 256 → EReal) (A0 A1 A2 : Fin 256 → Fin 256 → EReal) (i : Fin 256) (b : Fin 1024) :
    Fin 256 → EReal :=
  layer A2 (layer A1 (layer A0 fun n => X b n * keep i n))

/-- The result array: entry `(b, i)` is output `i` of node `i`'s network on row `b`. -/
def result (X : Fin 1024 → Fin 256 → EReal) (A0 A1 A2 : Fin 256 → Fin 256 → EReal) :
    (⟨2, ![1024, 256]⟩ : Shape).Idx → EReal :=
  fun j => column X A0 A1 A2 (j 1) (j 0) (j 1)

theorem result_ix2 (X : Fin 1024 → Fin 256 → EReal) (A0 A1 A2 : Fin 256 → Fin 256 → EReal) (b : Fin 1024) (i : Fin 256) :
    result X A0 A1 A2 (ix2 b i) = column X A0 A1 A2 i b i := rfl

/-- A layer depends on its input row only through the row's entries. -/
theorem layer_congr (A : Fin 256 → Fin 256 → EReal) {h h' : Fin 256 → EReal} (e : ∀ n, h n = h' n) (m : Fin 256) :
    layer A h m = layer A h' m := by
  rw [show h = h' from funext e]

/-! ## The two sums with one term -/

/-- The lane sum of a row against the one-hot row is the row's entry at the node. -/
theorem sum_mul_pick (f : Fin 256 → EReal) (i : Fin 256) : ∑ n : Fin 256, f n * pick i n = f i := by
  unfold pick
  simp only [mul_ite, mul_one, mul_zero]
  rw [Finset.sum_ite_eq' Finset.univ i f, if_pos (Finset.mem_univ i)]

/-- The sum over the leading axis of an array kept only on the diagonal `k = m`, from the initial value `0`. -/
theorem zero_add_sum_diag (f : Fin 256 → EReal) (m : Fin 256) :
    (0 : EReal) + ∑ k : Fin 256, (if k = m then f k else 0) = f m := by
  rw [zero_add, Finset.sum_ite_eq' Finset.univ m f, if_pos (Finset.mem_univ m)]

/-! ## The masks as words -/

/-- Two numbers below 256 are the same 32-bit word only if they are equal. -/
theorem ofNat_eq_iff (n i : Fin 256) : BitVec.ofNat 32 n.val = BitVec.ofNat 32 i.val ↔ n = i := by
  constructor
  · intro h
    have e := congrArg BitVec.toNat h
    simp only [BitVec.toNat_ofNat] at e
    have hn := n.isLt
    have hi := i.isLt
    apply Fin.ext
    omega
  · rintro rfl; rfl

/-- The node number of grid step `g`'s `k`-th node, as the kernel computes it, is the word of `16 g + k`. -/
theorem node_word : ∀ g k : Fin 16,
    Scalar.addi (Scalar.muli (BitVec.ofNat 32 g.val) 16#32) (BitVec.ofNat 32 k.val) = BitVec.ofNat 32 (16 * g.val + k.val) := by
  decide

/-- "lane ≠ node", widened to 32 bits and converted signed, is `keep`. -/
theorem keep_word (i n : Fin 256) :
    FloatOps.sitofp (F := Ideal) .f32 ((IntOp.cmpi .ne (BitVec.ofNat 32 n.val) (BitVec.ofNat 32 i.val)).setWidth 32) = keep i n := by
  show ((((IntOp.cmpi .ne (BitVec.ofNat 32 n.val) (BitVec.ofNat 32 i.val)).setWidth 32).toInt : ℝ) : EReal) = keep i n
  unfold keep IntOp.cmpi
  by_cases h : n = i
  · subst h; simp
  · have hb : (BitVec.ofNat 32 n.val != BitVec.ofNat 32 i.val) = true :=
      bne_iff_ne.mpr fun e => h ((ofNat_eq_iff n i).1 e)
    rw [if_neg h]; simp [hb]

/-- "lane = node", widened to 32 bits and converted signed, is the one-hot row `pick`. -/
theorem pick_word (i n : Fin 256) :
    FloatOps.sitofp (F := Ideal) .f32 ((IntOp.cmpi .eq (BitVec.ofNat 32 n.val) (BitVec.ofNat 32 i.val)).setWidth 32) = pick i n := by
  show ((((IntOp.cmpi .eq (BitVec.ofNat 32 n.val) (BitVec.ofNat 32 i.val)).setWidth 32).toInt : ℝ) : EReal) = pick i n
  unfold pick IntOp.cmpi
  by_cases h : n = i
  · subst h; simp
  · have hb : (BitVec.ofNat 32 n.val == BitVec.ofNat 32 i.val) = false :=
      beq_eq_false_iff_ne.mpr fun e => h ((ofNat_eq_iff n i).1 e)
    rw [if_neg h]; simp [hb]

/-- `1.0` minus "row = column" converted unsigned is `keep`: the reference's `1 - eye`. -/
theorem one_sub_eq_word (i n : Fin 256) :
    FloatOps.subf (F := Ideal) (φ := .f32) (FloatOps.ofBits .f32 0x3F800000#32)
        (FloatOps.uitofp .f32 (IntOp.cmpi .eq (IntOp.addi (BitVec.ofNat 32 i.val) 0#32) (BitVec.ofNat 32 n.val))) = keep i n := by
  show Ideal.ofBits .f32 0x3F800000#32
      - ((((IntOp.cmpi .eq (IntOp.addi (BitVec.ofNat 32 i.val) 0#32) (BitVec.ofNat 32 n.val)).toNat : ℝ)) : EReal) = keep i n
  rw [show Ideal.ofBits .f32 0x3F800000#32 = 1 from IdealRules.sign_bit.ideal_onePat .f32]
  unfold keep IntOp.cmpi IntOp.addi
  rw [BitVec.add_zero]
  by_cases h : n = i
  · subst h
    simp
    rw [← EReal.coe_one, ← EReal.coe_sub, sub_self, EReal.coe_zero]
  · have hb : (BitVec.ofNat 32 i.val == BitVec.ofNat 32 n.val) = false :=
      beq_eq_false_iff_ne.mpr fun e => h ((ofNat_eq_iff i n).1 e).symm
    rw [if_neg h]; simp [hb]

/-- A select on "k = m" (as 32-bit words) against the zero pattern keeps the diagonal. -/
theorem select_diag (k m : Fin 256) (a : EReal) :
    Scalar.select (IntOp.cmpi .eq (BitVec.ofNat 32 k.val) (BitVec.ofNat 32 m.val)) a (FloatOps.ofBits (F := Ideal) .f32 0x00000000#32)
      = if k = m then a else 0 := by
  show Scalar.select _ a (Ideal.ofBits .f32 0x00000000#32) = _
  rw [Ideal.ofBits_zero_f32]
  unfold Scalar.select IntOp.cmpi
  by_cases h : k = m
  · subst h; simp
  · have hb : (BitVec.ofNat 32 k.val == BitVec.ofNat 32 m.val) = false :=
      beq_eq_false_iff_ne.mpr fun e => h ((ofNat_eq_iff k m).1 e)
    rw [if_neg h]; simp [hb]

end Cert.NodeColumn

end
-- ==== Proof.KernelColumn.lean ====
/-
  What the idealized kernel's body leaves in the output block, entry by entry.

  The body is sixteen copies of one computation, the copy `k` of grid step `g` for node `16 g + k`: the lane
  numbers compared with the node number give the row that zeroes the node's column (`laneMask .ne`) and the one-hot row
  (`laneMask .eq`); the masked block goes through three matrix products into a zero accumulator, each followed by
  `tanh` (`dense`; the changes of format between them are the identity on the extended reals); the product with the
  one-hot row is summed over the lanes (`nodeRow`). The sixteen rows, each recast `[1024] → [1, 1024]`, are
  concatenated along the rows and stored as the whole block. The printed text spells the sixteen copies through
  differently cut payload terms; unfolded, they are `nodeRow` at the sixteen node numbers (`out_rows`).

  Read at the ideal instance: a lane mask at lane `n` is `keep i n` / `pick i n` (`laneMask_ne_apply`,
  `laneMask_eq_apply`); a dense layer at `(q, m)` is `layer` of row `q` with the weights `A m n = w (n, m)` — the kernel is
  handed the transposed matrices — (`dense_layer`); the lane sum against the one-hot row keeps output `i`
  (`sum_mul_pick`); so row `k` of the block at column `q` is `column … node q node` (`nodeRow_apply`, `out_apply`).
-/
import proofs.«164787_j57896159150711_1_alg».proof.Proof.KernelIdealFrame
import proofs.«164787_j57896159150711_1_alg».proof.Proof.NodeColumn
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Column

open Cert.KernelIdeal Cert.KernelIdeal.Gen Cert.KernelIdeal.GenP Idealize.ShloMosaic Idealize.ShloMosaic.ValueIdx Cert.NodeColumn

variable {F : FTy → Type} [FloatOps F]

def laneMask (p : CmpIPredicate) (node : BitVec 32) : FVec F S1x256 .f32 :=
  sitofp .f32 (extui 32 (cmpi p (iota .tc S1x256 32 [1] iota_S1x256_d1_w32) (broadcast S1x256 node)) natLt_1_32)

def dense (a : FVec F S1024x256 .bf16) (w : FVec F S256x256 .bf16) : FVec F S1024x256 .f32 :=
  tanh (matmul dot_S1024x256_S256x256_S1024x256_1_0_0_1_n_n none a w (constant S1024x256 .f32 0x00000000#32))

def nodeRow (node : BitVec 32) (x : FVec F S1024x256 .bf16) (w0 w1 w2 : FVec F S256x256 .bf16) : FVec F S1024 .f32 :=
  multiReduction .add [1] S1024
    (mulf
      (dense (truncf .bf16 (dense (truncf .bf16 (dense
        (mulf x (broadcastTo S1024x256 (truncf .bf16 (laneMask .ne node) bitsLt_bf16_f32) broadcasts_S1x256_S1024x256))
        w0) bitsLt_bf16_f32) w1) bitsLt_bf16_f32) w2)
      (broadcastTo S1024x256 (laneMask .eq node) broadcasts_S1x256_S1024x256))
    0x00000000#32 reduces_S1024x256_S1024 (.inl rfl) rfl

def nodeWord (i : grid0.Coords) (k : Fin 16) : BitVec 32 :=
  Scalar.addi (Scalar.muli (BitVec.ofNat 32 (i 0).val) 16#32) (BitVec.ofNat 32 k.val)

def rowPiece (i : grid0.Coords) (x0 : Vec F S1024x256 .bf16) (x1 x2 x3 : Vec F S256x256 .bf16) (k : Fin 16) :
    (s : Shape) × (s.Idx → F .f32) :=
  ⟨S1x1024, shapeCast S1x1024 (nodeRow (nodeWord i k) (k0_pay2 (View.ld x0 r0_0)) (k0_pay3 (View.ld x1 r0_1))
    (k0_pay4 (View.ld x2 r0_1)) (k0_pay5 (View.ld x3 r0_1))) shapeCasts_S1024_S1x1024⟩

/-- Row `k` of the block as the body stores it: node `16 g + k`'s row, recast to one row of the block. -/
def rowVec (i : grid0.Coords) (x0 : Vec F S1024x256 .bf16) (x1 x2 x3 : Vec F S256x256 .bf16) (k : Fin 16) :
    S1x1024.Idx → F .f32 :=
  shapeCast S1x1024 (nodeRow (nodeWord i k) (k0_pay2 (View.ld x0 r0_0)) (k0_pay3 (View.ld x1 r0_1))
    (k0_pay4 (View.ld x2 r0_1)) (k0_pay5 (View.ld x3 r0_1))) shapeCasts_S1024_S1x1024

/-- The sixteen rows, as the pieces of the concatenation. -/
abbrev rowPieces (i : grid0.Coords) (x0 : Vec F S1024x256 .bf16) (x1 x2 x3 : Vec F S256x256 .bf16) :
    List ((s : Shape) × (s.Idx → F .f32)) :=
  List.ofFn fun k : Fin 16 => (⟨S1x1024, rowVec i x0 x1 x2 x3 k⟩ : (s : Shape) × (s.Idx → F .f32))

theorem rows_concatenate (i : grid0.Coords) (x0 : Vec F S1024x256 .bf16) (x1 x2 x3 : Vec F S256x256 .bf16) :
    Shape.Concatenates ((rowPieces i x0 x1 x2 x3).map (·.1)) S16x1024 0 :=
  concatenates_S1x1024_S1x1024_S1x1024_S1x1024_S1x1024_S1x1024_S1x1024_S1x1024_S1x1024_S1x1024_S1x1024_S1x1024_S1x1024_S1x1024_S1x1024_S1x1024_S16x1024_d0

/-- The block the body stores is the concatenation of the sixteen node rows: every payload term unfolded, the two sides
    are the same text. -/
theorem out_rows (i : grid0.Coords) (x0 : Vec F S1024x256 .bf16) (x1 x2 x3 : Vec F S256x256 .bf16) :
    out0_4 i x0 x1 x2 x3
      = View.canon [⟨r0_2, concatenate S16x1024 0 (rowPieces i x0 x1 x2 x3) (rows_concatenate i x0 x1 x2 x3)⟩] := by
  unfold out0_4 k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44
  rfl

/-! ## Read at the ideal instance -/

theorem hz : (![0, 0] : Fin 2 → Nat) = fun _ => 0 := funext fun a => by fin_cases a <;> rfl

/-- The row that zeroes the node's column, at lane `n`. -/
theorem laneMask_ne_apply (i n : Fin 256) :
    laneMask (F := Ideal) .ne (BitVec.ofNat 32 i.val) (ix2 (0 : Fin 1) n) = keep i n := by
  unfold laneMask
  show FloatOps.sitofp .f32 ((IntOp.cmpi .ne (iota .tc S1x256 32 [1] iota_S1x256_d1_w32 (ix2 (0 : Fin 1) n)) (BitVec.ofNat 32 i.val)).setWidth 32) = _
  rw [iota_single_apply]
  exact keep_word i n

/-- The one-hot row, at lane `n`. -/
theorem laneMask_eq_apply (i n : Fin 256) :
    laneMask (F := Ideal) .eq (BitVec.ofNat 32 i.val) (ix2 (0 : Fin 1) n) = pick i n := by
  unfold laneMask
  show FloatOps.sitofp .f32 ((IntOp.cmpi .eq (iota .tc S1x256 32 [1] iota_S1x256_d1_w32 (ix2 (0 : Fin 1) n)) (BitVec.ofNat 32 i.val)).setWidth 32) = _
  rw [iota_single_apply]
  exact pick_word i n

/-- A [1, 256] row broadcast over the 1024 rows reads its lane. -/
theorem bcastRow_apply (r : FVec Ideal S1x256 .f32) (q : Fin 1024) (n : Fin 256) :
    broadcastTo S1024x256 r broadcasts_S1x256_S1024x256 (ix2 q n) = r (ix2 (0 : Fin 1) n) :=
  broadcastTo_apply r _ (ix2 q n) (ix2 (0 : Fin 1) n) fun a => match a with
    | ⟨0, _⟩ => by show (0 : Nat) = if (1 : Nat) = 1 then 0 else _; rw [if_pos rfl]
    | ⟨1, _⟩ => by show n.val = if (256 : Nat) = 1 then 0 else n.val; rw [if_neg (by decide)]

theorem bcastRowB_apply (r : FVec Ideal S1x256 .bf16) (q : Fin 1024) (n : Fin 256) :
    broadcastTo S1024x256 r broadcasts_S1x256_S1024x256 (ix2 q n) = r (ix2 (0 : Fin 1) n) :=
  broadcastTo_apply r _ (ix2 q n) (ix2 (0 : Fin 1) n) fun a => match a with
    | ⟨0, _⟩ => by show (0 : Nat) = if (1 : Nat) = 1 then 0 else _; rw [if_pos rfl]
    | ⟨1, _⟩ => by show n.val = if (256 : Nat) = 1 then 0 else n.val; rw [if_neg (by decide)]

/-! ### The matrix product's operand indices -/

theorem lhs_dense_0 (j : S1024x256.Idx) (c : dot_S1024x256_S256x256_S1024x256_1_0_0_1_n_n.contr.Idx) :
    (dot_S1024x256_S256x256_S1024x256_1_0_0_1_n_n.lhsIdx j c 0).val = (j 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_dense_1 (j : S1024x256.Idx) (c : dot_S1024x256_S256x256_S1024x256_1_0_0_1_n_n.contr.Idx) :
    (dot_S1024x256_S256x256_S1024x256_1_0_0_1_n_n.lhsIdx j c 1).val = (c ⟨0, by decide⟩).val :=
  dot_S1024x256_S256x256_S1024x256_1_0_0_1_n_n.lhsIdx_val_of_single rfl j c
theorem rhs_dense_0 (j : S1024x256.Idx) (c : dot_S1024x256_S256x256_S1024x256_1_0_0_1_n_n.contr.Idx) :
    (dot_S1024x256_S256x256_S1024x256_1_0_0_1_n_n.rhsIdx j c 0).val = (c ⟨0, by decide⟩).val :=
  dot_S1024x256_S256x256_S1024x256_1_0_0_1_n_n.rhsIdx_val_of_single rfl j c
theorem rhs_dense_1 (j : S1024x256.Idx) (c : dot_S1024x256_S256x256_S1024x256_1_0_0_1_n_n.contr.Idx) :
    (dot_S1024x256_S256x256_S1024x256_1_0_0_1_n_n.rhsIdx j c 1).val = (j 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A dense layer at `(q, m)`: `tanh` of row `q` against column `m` of the matrix the kernel is handed. -/
theorem dense_layer (a : FVec Ideal S1024x256 .bf16) (w : FVec Ideal S256x256 .bf16) (q : Fin 1024) (m : Fin 256) :
    dense a w (ix2 q m) = layer (fun m n => w (ix2 n m)) (fun n => a (ix2 q n)) m := by
  unfold dense layer
  show Ideal.tanh (FloatOps.matmul dot_S1024x256_S256x256_S1024x256_1_0_0_1_n_n none a w (constant S1024x256 .f32 0x00000000#32) (ix2 q m)) = _
  rw [Ideal.matmul_constant_zero_apply, ← Equiv.sum_comp (contrEquiv1 dot_S1024x256_S256x256_S1024x256_1_0_0_1_n_n 256 rfl rfl).symm]
  refine congrArg Ideal.tanh (Finset.sum_congr rfl fun k _ => ?_)
  have hk := contrEquiv1_symm_val dot_S1024x256_S256x256_S1024x256_1_0_0_1_n_n 256 rfl rfl k
  have el : dot_S1024x256_S256x256_S1024x256_1_0_0_1_n_n.lhsIdx (ix2 q m) ((contrEquiv1 dot_S1024x256_S256x256_S1024x256_1_0_0_1_n_n 256 rfl rfl).symm k) = ix2 q k := funext fun a => Fin.ext (by
    match a with
    | ⟨0, _⟩ => exact lhs_dense_0 _ _
    | ⟨1, _⟩ => exact (lhs_dense_1 _ _).trans hk)
  have er : dot_S1024x256_S256x256_S1024x256_1_0_0_1_n_n.rhsIdx (ix2 q m) ((contrEquiv1 dot_S1024x256_S256x256_S1024x256_1_0_0_1_n_n 256 rfl rfl).symm k) = ix2 k m := funext fun a => Fin.ext (by
    match a with
    | ⟨0, _⟩ => exact (rhs_dense_0 _ _).trans hk
    | ⟨1, _⟩ => exact rhs_dense_1 _ _)
  rw [el, er]

/-- The lane sum's inserted index. -/
theorem lift_lane (q : Fin 1024) (k : Fin 256) :
    reduces_S1024x256_S1024.lift (ix1 q) k = ix2 q k :=
  funext fun a => Fin.ext (by match a with | ⟨0, _⟩ => rfl | ⟨1, _⟩ => rfl)

/-- ONE NODE'S ROW at the ideal instance: entry `q` is output `i` of node `i`'s network on row `q`. -/
theorem nodeRow_apply (i : Fin 256) (x : FVec Ideal S1024x256 .bf16) (w0 w1 w2 : FVec Ideal S256x256 .bf16) (q : Fin 1024) :
    nodeRow (BitVec.ofNat 32 i.val) x w0 w1 w2 (ix1 q)
      = column (fun b n => x (ix2 b n)) (fun m n => w0 (ix2 n m)) (fun m n => w1 (ix2 n m)) (fun m n => w2 (ix2 n m)) i q i := by
  unfold nodeRow column
  refine (Ideal.multiReduction_add_single _ 0x00000000#32 reduces_S1024x256_S1024 _ _ (ix1 q)).trans ?_
  show ∑ k : Fin 256, _ = _
  trans ∑ n : Fin 256,
      (fun n => dense (truncf .bf16 (dense (truncf .bf16 (dense
        (mulf x (broadcastTo S1024x256 (truncf .bf16 (laneMask .ne (BitVec.ofNat 32 i.val)) bitsLt_bf16_f32) broadcasts_S1x256_S1024x256))
        w0) bitsLt_bf16_f32) w1) bitsLt_bf16_f32) w2 (ix2 q n)) n * pick i n
  · refine Finset.sum_congr rfl fun k _ => ?_
    rw [lift_lane, mulf_apply, bcastRow_apply, laneMask_eq_apply]
  · rw [sum_mul_pick, dense_layer]
    refine layer_congr _ (fun n => ?_) i
    rw [truncf_apply, dense_layer]
    refine layer_congr _ (fun n' => ?_) n
    rw [truncf_apply, dense_layer]
    refine layer_congr _ (fun n'' => ?_) n'
    rw [mulf_apply, bcastRowB_apply, truncf_apply, laneMask_ne_apply]

/-! ## The stored block, entry by entry -/

/-- The loaded blocks reach the computation through whole-block loads and identity casts. -/
theorem ld_x (x0 : Vec Ideal S1024x256 .bf16) : k0_pay2 (View.ld x0 r0_0) = x0 := by
  unfold k0_pay2; rw [shapeCast_self, View.ld_unit_zero (S := S1024x256) hz]
theorem ld_w0 (x1 : Vec Ideal S256x256 .bf16) : k0_pay3 (View.ld x1 r0_1) = x1 := by
  unfold k0_pay3; rw [shapeCast_self, View.ld_unit_zero (S := S256x256) hz]
theorem ld_w1 (x2 : Vec Ideal S256x256 .bf16) : k0_pay4 (View.ld x2 r0_1) = x2 := by
  unfold k0_pay4; rw [shapeCast_self, View.ld_unit_zero (S := S256x256) hz]
theorem ld_w2 (x3 : Vec Ideal S256x256 .bf16) : k0_pay5 (View.ld x3 r0_1) = x3 := by
  unfold k0_pay5; rw [shapeCast_self, View.ld_unit_zero (S := S256x256) hz]

/-- THE BLOCK ENTRY: at grid coordinates `i`, row `k` and column `q` of the stored block is output `node` of node
    `node = 16 (i 0) + k`'s network on batch row `q`, the weights read transposed. -/
theorem out_apply (i : grid0.Coords) (x0 : Vec Ideal S1024x256 .bf16) (x1 x2 x3 : Vec Ideal S256x256 .bf16)
    (k : Fin 16) (q : Fin 1024) (node : Fin 256) (hnode : node.val = 16 * (i 0).val + k.val) :
    out0_4 i x0 x1 x2 x3 (ix2 k q)
      = column (fun b n => x0 (ix2 b n)) (fun m n => x1 (ix2 n m)) (fun m n => x2 (ix2 n m)) (fun m n => x3 (ix2 n m))
          node q node := by
  rw [out_rows, View.canon_unit_zero hz]
  refine (concatenate_ofFn_unit_apply (0 : Fin S16x1024.rank) (rowVec i x0 x1 x2 x3) (rows_concatenate i x0 x1 x2 x3)
    rfl rfl (ix2 k q) k rfl (ix2 (0 : Fin 1) q) (fun b hb => ?_)).trans ?_
  · match b with
    | ⟨0, _⟩ => exact absurd rfl hb
    | ⟨1, _⟩ => rfl
  · have hw : nodeWord i k = BitVec.ofNat 32 node.val := by rw [hnode]; exact node_word (i 0) k
    unfold rowVec
    rw [hw, ld_x, ld_w0, ld_w1, ld_w2]
    refine (shapeCast_addUnit_apply ![1024] _ shapeCasts_S1024_S1x1024 (ix2 (0 : Fin 1) q)).trans ?_
    refine (congrArg _ (funext fun a => ?_)).trans (nodeRow_apply node x0 x1 x2 x3 q)
    match a with
    | ⟨0, _⟩ => rfl

end Cert.KernelIdeal.Column

end
-- ==== Proof.KernelArray.lean ====
/-
  From the stored blocks to the idealized kernel's result array.

  Before the call the host changes the input's format (the identity on the extended reals) and transposes the three
  weight matrices, so the region finds `x` and the `Wₗᵀ`: a weight window at `(n, m)` holds `Wₗ (m, n)` (`blkX_apply`,
  `blkW0_apply` …; every input window is the whole array at every grid step). Grid step `t` writes back rows
  `16 t … 16 t + 15` of the [256, 1024] output, row `16 t + k` being node `16 t + k`'s column over the batch
  (`out_apply`), so each written block is that block of ONE array, `colsArr` — entry `(i, q)` is output `i` of node `i`'s
  network on batch row `q` (`flushed_eq`) —, and the sixteen blocks cover the array: index `(i, q)` lies in block
  `i / 16` (`cover`). After the call the host transposes the array: the result at `(b, i)` is `colsArr` at `(i, b)`,
  which is `result` of the arguments (`tail_result`, `run`).
-/
import proofs.«164787_j57896159150711_1_alg».proof.Proof.KernelColumn
import Idealize.ShloMosaic.Lib.StableHlo.Run
import Idealize.ShloMosaic.Lib.ValueLayout

set_option maxRecDepth 16384

noncomputable section

open scoped BigOperators

namespace Cert.KernelIdeal.Array

open Cert.KernelIdeal Cert.KernelIdeal.Gen Cert.KernelIdeal.GenP Cert.KernelIdeal.Column Cert.NodeColumn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The arguments as the specification takes them -/

/-- The argument arrays on core `c`. -/
abbrev argX (c : Dev nD) : FVec Ideal S1024x256 .f32 := m ((c : Thread nD τ).loc main_arg0)
abbrev argW0 (c : Dev nD) : FVec Ideal S256x256 .f32 := m ((c : Thread nD τ).loc main_arg1)
abbrev argW1 (c : Dev nD) : FVec Ideal S256x256 .f32 := m ((c : Thread nD τ).loc main_arg2)
abbrev argW2 (c : Dev nD) : FVec Ideal S256x256 .f32 := m ((c : Thread nD τ).loc main_arg3)

/-- The input's rows, and a weight matrix with `A m n` the weight from input `n` to output `m`. -/
abbrev rowsOf (x : FVec Ideal S1024x256 .f32) : Fin 1024 → Fin 256 → EReal := fun b n => x (ix2 b n)
abbrev weightsOf (W : FVec Ideal S256x256 .f32) : Fin 256 → Fin 256 → EReal := fun m n => W (ix2 m n)

/-- The array the output window ends holding: entry `(i, q)` is output `i` of node `i`'s network on batch row `q`. -/
def colsArr (c : Dev nD) : S256x1024.Idx → EReal :=
  fun j => column (rowsOf (argX m c)) (weightsOf (argW0 m c)) (weightsOf (argW1 m c)) (weightsOf (argW2 m c)) (j 0) (j 1) (j 0)

theorem colsArr_ix2 (c : Dev nD) (i : Fin 256) (q : Fin 1024) :
    colsArr m c (ix2 i q)
      = column (rowsOf (argX m c)) (weightsOf (argW0 m c)) (weightsOf (argW1 m c)) (weightsOf (argW2 m c)) i q i := rfl

/-- A node's column depends on the rows and the weights only through their entries. -/
theorem column_congr {X X' : Fin 1024 → Fin 256 → EReal} {A0 A0' A1 A1' A2 A2' : Fin 256 → Fin 256 → EReal}
    (hX : ∀ b n, X b n = X' b n) (h0 : ∀ m n, A0 m n = A0' m n) (h1 : ∀ m n, A1 m n = A1' m n) (h2 : ∀ m n, A2 m n = A2' m n)
    (i : Fin 256) (b : Fin 1024) (o : Fin 256) : column X A0 A1 A2 i b o = column X' A0' A1' A2' i b o := by
  rw [show X = X' from funext fun b => funext (hX b), show A0 = A0' from funext fun m => funext (h0 m),
    show A1 = A1' from funext fun m => funext (h1 m), show A2 = A2' from funext fun m => funext (h2 m)]

/-! ## The arrays as the region finds them -/

/-- The input after the host's change of format: the same extended reals. -/
theorem V_x (c : Dev nD) : (V m c main_v0 : S1024x256.Idx → EReal) = truncf .bf16 (argX m c) bitsLt_bf16_f32 := by
  show StableHlo.after hostOps0 (fun b => m (c, b)) (Proc.devRef .tc main_v0) = _
  after_results

/-- A weight matrix after the host's transpose and change of format. -/
theorem V_w0 (c : Dev nD) : (V m c main_v2 : S256x256.Idx → EReal)
    = truncf .bf16 (transpose S256x256 [1, 0] (argW0 m c) transposes_S256x256_S256x256_1_0) bitsLt_bf16_f32 := by
  show StableHlo.after hostOps0 (fun b => m (c, b)) (Proc.devRef .tc main_v2) = _
  after_results
theorem V_w1 (c : Dev nD) : (V m c main_v4 : S256x256.Idx → EReal)
    = truncf .bf16 (transpose S256x256 [1, 0] (argW1 m c) transposes_S256x256_S256x256_1_0) bitsLt_bf16_f32 := by
  show StableHlo.after hostOps0 (fun b => m (c, b)) (Proc.devRef .tc main_v4) = _
  after_results
theorem V_w2 (c : Dev nD) : (V m c main_v6 : S256x256.Idx → EReal)
    = truncf .bf16 (transpose S256x256 [1, 0] (argW2 m c) transposes_S256x256_S256x256_1_0) bitsLt_bf16_f32 := by
  show StableHlo.after hostOps0 (fun b => m (c, b)) (Proc.devRef .tc main_v6) = _
  after_results

/-! ## The index maps, decided over the sixteen grid steps -/

/-- Every input window is block `(0, 0)` — the whole array — at every step; the output window is block `(t, 0)`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val ∧ t.val < 16 :=
  (by decide +kernel : ∀ t : Fin grid0.N, _)

/-! ## The input blocks at a grid step -/

theorem blkX_apply (c : Dev nD) (t : Fin cfg0.N) (b : Fin 1024) (n : Fin 256) :
    iblk m c 0 t (ix2 b n) = rowsOf (argX m c) b n := by
  obtain ⟨e0, e1, -⟩ := idx_facts t
  show V m c main_v0 (((cfg0.win 0).blk t).view.emb (ix2 b n)) = _
  have hemb : ((cfg0.win 0).blk t).view.emb (ix2 b n) = ix2 b n := by
    funext a; apply Fin.ext
    match a with
    | ⟨0, _⟩ => show win0_0.index t (0 : Fin 2) * 1024 + 1 * b.val = b.val; omega
    | ⟨1, _⟩ => show win0_0.index t (1 : Fin 2) * 256 + 1 * n.val = n.val; omega
  rw [hemb, V_x]
  rfl

theorem blkW0_apply (c : Dev nD) (t : Fin cfg0.N) (o n : Fin 256) :
    iblk m c 1 t (ix2 n o) = weightsOf (argW0 m c) o n := by
  obtain ⟨-, -, e0, e1, -⟩ := idx_facts t
  show V m c main_v2 (((cfg0.win 1).blk t).view.emb (ix2 n o)) = _
  have hemb : ((cfg0.win 1).blk t).view.emb (ix2 n o) = ix2 n o := by
    funext a; apply Fin.ext
    match a with
    | ⟨0, _⟩ => show win0_1.index t (0 : Fin 2) * 256 + 1 * n.val = n.val; omega
    | ⟨1, _⟩ => show win0_1.index t (1 : Fin 2) * 256 + 1 * o.val = o.val; omega
  rw [hemb, V_w0]
  exact transpose_ix2_apply (argW0 m c) transposes_S256x256_S256x256_1_0 n o

theorem blkW1_apply (c : Dev nD) (t : Fin cfg0.N) (o n : Fin 256) :
    iblk m c 2 t (ix2 n o) = weightsOf (argW1 m c) o n := by
  obtain ⟨-, -, -, -, e0, e1, -⟩ := idx_facts t
  show V m c main_v4 (((cfg0.win 2).blk t).view.emb (ix2 n o)) = _
  have hemb : ((cfg0.win 2).blk t).view.emb (ix2 n o) = ix2 n o := by
    funext a; apply Fin.ext
    match a with
    | ⟨0, _⟩ => show win0_2.index t (0 : Fin 2) * 256 + 1 * n.val = n.val; omega
    | ⟨1, _⟩ => show win0_2.index t (1 : Fin 2) * 256 + 1 * o.val = o.val; omega
  rw [hemb, V_w1]
  exact transpose_ix2_apply (argW1 m c) transposes_S256x256_S256x256_1_0 n o

theorem blkW2_apply (c : Dev nD) (t : Fin cfg0.N) (o n : Fin 256) :
    iblk m c 3 t (ix2 n o) = weightsOf (argW2 m c) o n := by
  obtain ⟨-, -, -, -, -, -, e0, e1, -⟩ := idx_facts t
  show V m c main_v6 (((cfg0.win 3).blk t).view.emb (ix2 n o)) = _
  have hemb : ((cfg0.win 3).blk t).view.emb (ix2 n o) = ix2 n o := by
    funext a; apply Fin.ext
    match a with
    | ⟨0, _⟩ => show win0_3.index t (0 : Fin 2) * 256 + 1 * n.val = n.val; omega
    | ⟨1, _⟩ => show win0_3.index t (1 : Fin 2) * 256 + 1 * o.val = o.val; omega
  rw [hemb, V_w2]
  exact transpose_ix2_apply (argW2 m c) transposes_S256x256_S256x256_1_0 n o

/-! ## Blocks to the array -/

/-- WHAT GRID STEP `t` WRITES BACK is block `t` of `colsArr`. -/
theorem flushed_eq (c : Dev nD) (t : Fin cfg0.N) :
    (dats m 0 c).flushed 4 t = ((cfg0.win 4).blk t).view.read (Elt Ideal) (colsArr m c) := by
  show (cfg0.win 4).cut (grid0.coords t) ((dats m 0 c).after 4 t) = _
  rw [after0_4]
  obtain ⟨-, -, -, -, -, -, -, -, e0, e1, eg, ht⟩ := idx_facts t
  funext y
  obtain ⟨k, q, rfl⟩ : ∃ (k : Fin 16) (q : Fin 1024), y = ix2 k q := ⟨y 0, y 1, eq_ix2 y⟩
  have hlt : 16 * t.val + k.val < 256 := by have := k.isLt; omega
  show out0_4 (grid0.coords t) (iblk m c 0 t) (iblk m c 1 t) (iblk m c 2 t) (iblk m c 3 t) (ix2 k q)
    = colsArr m c (((cfg0.win 4).blk t).view.emb (ix2 k q))
  have hemb : ((cfg0.win 4).blk t).view.emb (ix2 k q) = ix2 (⟨16 * t.val + k.val, hlt⟩ : Fin 256) q := by
    funext a; apply Fin.ext
    match a with
    | ⟨0, _⟩ => show win0_4.index t (0 : Fin 2) * 16 + 1 * k.val = 16 * t.val + k.val; omega
    | ⟨1, _⟩ => show win0_4.index t (1 : Fin 2) * 1024 + 1 * q.val = q.val; omega
  rw [hemb, colsArr_ix2]
  refine (out_apply (grid0.coords t) (iblk m c 0 t) (iblk m c 1 t) (iblk m c 2 t) (iblk m c 3 t) k q
    ⟨16 * t.val + k.val, hlt⟩ (by show 16 * t.val + k.val = 16 * (grid0.coords t 0).val + k.val; rw [eg])).trans ?_
  exact column_congr (blkX_apply m c t) (blkW0_apply m c t) (blkW1_apply m c t) (blkW2_apply m c t) _ _ _

/-- An index of the output array is in step `t`'s block iff each coordinate is in the block's range on its axis. -/
theorem mem_blk (t : Fin cfg0.N) (i : S256x1024.Idx) :
    i ∈ ((cfg0.win 4).blk t).view.set ↔ ∀ a : Fin 2, win0_4.index t a * S16x1024.size a ≤ (i a).val
      ∧ (i a).val < win0_4.index t a * S16x1024.size a + S16x1024.size a := by
  show i ∈ ((View.whole main_v7).slice (win0_4.rect t)).set ↔ _
  rw [View.set_slice_whole, Rect.mem_set_unit]
  exact Iff.rfl

/-- The sixteen blocks cover the array: row `i` lies in block `i / 16`. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have hi0 : (i 0).val < 256 := (i 0).isLt
  have hi1 : (i 1).val < 1024 := (i 1).isLt
  let t : Fin cfg0.N := ⟨(i 0).val / 16, by rw [show cfg0.N = 16 from N_0]; omega⟩
  obtain ⟨-, -, -, -, -, -, -, -, e0, e1, -⟩ := idx_facts t
  refine ⟨t, flush0_4 t, ?_⟩
  rw [mem_blk]
  intro a
  have ht : t.val = (i 0).val / 16 := rfl
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 1024 ≤ (i 1).val ∧ (i 1).val < win0_4.index t (1 : Fin 2) * 1024 + 1024; omega

/-- THE OUTPUT ARRAY after the region is `colsArr`. -/
theorem final (c : Dev nD) : (dats m 0 c).arrAt 4 cfg0.N = colsArr m c :=
  (dats m 0 c).arrAt_eq_of_cover 4 (colsArr m c) (fun t _ => flushed_eq m c t) (cover c)

/-! ## The host's transpose after the call, and the run -/

/-- @main's result: the output array transposed, which is `result` of the arguments. -/
theorem tail_result (c : Dev nD) :
    (Pipeline.afterTail₀ cfgs (dats m) 0 (V0 m) [hostOps1] c main_v8 : S1024x256.Idx → EReal)
      = result (rowsOf (argX m c)) (weightsOf (argW0 m c)) (weightsOf (argW1 m c)) (weightsOf (argW2 m c)) := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = colsArr m c :=
    (Pipeline.withArrays_arr spec0 launch0.win.arr_inj c _ _ 4).trans (final m c)
  rw [hw]
  funext j
  obtain ⟨b, i, rfl⟩ : ∃ (b : Fin 1024) (i : Fin 256), j = ix2 b i := ⟨j 0, j 1, eq_ix2 j⟩
  rw [result_ix2]
  exact (transpose_ix2_apply (colsArr m c) transposes_S256x1024_S1024x256_1_0 b i).trans (colsArr_ix2 m c i b)

/-- THE IDEALIZED KERNEL'S RUN: every weakly fair execution ends with @main's result at `result` of the arguments and
    the arguments unchanged. -/
theorem run : θ_run defs (onTc (τ := τ) (main (F := Ideal))) ⟨m, fun _ => 0, ρ⟩ fun r => ∀ c : Dev nD,
      r.2.mem ((c.tc : Thread nD τ).loc main_v8)
        = result (rowsOf (argX m c)) (weightsOf (argW0 m c)) (weightsOf (argW1 m c)) (weightsOf (argW2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Array

end
-- ==== Proof.RefColumn.lean ====
/-
  The reference's result, entry by entry.

  The reference builds all 256 masked copies of the input at once — copy `i` is `x` times `1 - eye` row `i`, so column
  `i` is zeroed (`masked_apply`) —, sends the [256, 1024, 256] array through three `dot_general`s against the weight
  matrices contracted on their second axis, each followed by `tanh`: at `(i, b, m)` each is `layer` of row `(i, b)` with
  `A m n = W (m, n)` (`layer1_apply` … `layer3_apply`), and keeps the diagonal `h[i, b, i]` by a select on
  `i = m` against zero summed over `i` from `0`: a sum with one term (`zero_add_sum_diag`). So the result is `result` of
  the arguments (`ref_result`).
-/
import proofs.«164787_j57896159150711_1_alg».proof.Proof.Gen.ReferenceIdeal.Read
import proofs.«164787_j57896159150711_1_alg».proof.Proof.NodeColumn

noncomputable section

open scoped BigOperators

namespace Cert.ReferenceIdeal.Column

open Cert.ReferenceIdeal Cert.ReferenceIdeal.Gen Cert.ReferenceIdeal.Read Idealize.ShloMosaic Idealize.ShloMosaic.ValueIdx Cert.NodeColumn
open Idealize.ShloMosaic.TcCoe Idealize.SL.Sem

variable (x : (⟨S1024x256, .f32⟩ : BufTy).Contents (Elt Ideal)) (W0 W1 W2 : (⟨S256x256, .f32⟩ : BufTy).Contents (Elt Ideal))

/-- The input rows and the weights as the specification takes them. -/
abbrev rows : Fin 1024 → Fin 256 → EReal := fun b n => x (ix2 b n)
abbrev weights (W : (⟨S256x256, .f32⟩ : BufTy).Contents (Elt Ideal)) : Fin 256 → Fin 256 → EReal := fun m n => W (ix2 m n)

/-- Copy `i` of the input, at row `b` and column `n`: `x (b, n)` with column `i` zeroed. -/
theorem masked_apply (i : Fin 256) (b : Fin 1024) (n : Fin 256) :
    val_main_v12 (F := Ideal) x (ix3 i b n) = x (ix2 b n) * keep i n := by
  rw [val_main_v12_apply, val_main_v10_apply, val_main_v8_apply, val_main_v11_apply, val_main_v9_apply, val_main_v7_apply,
    val_main_v6_apply, val_main_cst_apply, val_main_v5_apply, val_main_v4_apply, val_main_v3_apply, val_main_v0_apply,
    val_main_v2_apply, val_main_c_apply, val_main_v1_apply]
  have e : idx_main_v8 (idx_main_v10 (ix3 i b n)) = ix2 b n :=
    funext fun a => by match a with | ⟨0, _⟩ => rfl | ⟨1, _⟩ => rfl
  rw [e]
  exact congrArg (x (ix2 b n) * ·) (one_sub_eq_word i n)

/-- The first layer at `(i, b, m)`. -/
theorem layer1_apply (i : Fin 256) (b : Fin 1024) (m : Fin 256) :
    val_main_v14 (F := Ideal) x W0 (ix3 i b m) = layer (weights W0) (fun n => x (ix2 b n) * keep i n) m := by
  rw [val_main_v14_apply, val_main_v13_apply]
  unfold layer
  refine congrArg Ideal.tanh (Finset.sum_congr rfl fun k _ => ?_)
  have el : lidx_main_v13 (ix3 i b m) k = ix3 i b k :=
    funext fun a => by match a with | ⟨0, _⟩ => rfl | ⟨1, _⟩ => rfl | ⟨2, _⟩ => rfl
  have er : ridx_main_v13 (ix3 i b m) k = ix2 m k :=
    funext fun a => by match a with | ⟨0, _⟩ => rfl | ⟨1, _⟩ => rfl
  rw [el, er, masked_apply]

/-- The second layer at `(i, b, m)`. -/
theorem layer2_apply (i : Fin 256) (b : Fin 1024) (m : Fin 256) :
    val_main_v16 (F := Ideal) x W0 W1 (ix3 i b m)
      = layer (weights W1) (layer (weights W0) fun n => x (ix2 b n) * keep i n) m := by
  rw [val_main_v16_apply, val_main_v15_apply]
  unfold layer
  refine congrArg Ideal.tanh (Finset.sum_congr rfl fun k _ => ?_)
  have el : lidx_main_v15 (ix3 i b m) k = ix3 i b k :=
    funext fun a => by match a with | ⟨0, _⟩ => rfl | ⟨1, _⟩ => rfl | ⟨2, _⟩ => rfl
  have er : ridx_main_v15 (ix3 i b m) k = ix2 m k :=
    funext fun a => by match a with | ⟨0, _⟩ => rfl | ⟨1, _⟩ => rfl
  rw [el, er, layer1_apply]
  rfl

/-- The third layer at `(i, b, m)`: node `i`'s network on row `b`, output `m`. -/
theorem layer3_apply (i : Fin 256) (b : Fin 1024) (m : Fin 256) :
    val_main_v18 (F := Ideal) x W0 W1 W2 (ix3 i b m)
      = column (rows x) (weights W0) (weights W1) (weights W2) i b m := by
  rw [val_main_v18_apply, val_main_v17_apply]
  unfold column layer
  refine congrArg Ideal.tanh (Finset.sum_congr rfl fun k _ => ?_)
  have el : lidx_main_v17 (ix3 i b m) k = ix3 i b k :=
    funext fun a => by match a with | ⟨0, _⟩ => rfl | ⟨1, _⟩ => rfl | ⟨2, _⟩ => rfl
  have er : ridx_main_v17 (ix3 i b m) k = ix2 m k :=
    funext fun a => by match a with | ⟨0, _⟩ => rfl | ⟨1, _⟩ => rfl
  rw [el, er, layer2_apply]
  rfl

/-- THE REFERENCE'S RESULT is `result` of its arguments. -/
theorem ref_result :
    val_main_v25 (F := Ideal) x W0 W1 W2 = result (rows x) (weights W0) (weights W1) (weights W2) := by
  funext j
  obtain ⟨b, m, rfl⟩ : ∃ (b : Fin 1024) (m : Fin 256), j = ix2 b m := ⟨j 0, j 1, eq_ix2 j⟩
  rw [result_ix2, val_main_v25_apply, val_main_cst_1_apply]
  show Ideal.ofBits .f32 0x00000000#32 + _ = _
  rw [Ideal.ofBits_zero_f32]
  refine Eq.trans ?_ (zero_add_sum_diag (fun k => column (rows x) (weights W0) (weights W1) (weights W2) k b m) m)
  refine congrArg ((0 : EReal) + ·) (Finset.sum_congr rfl fun k _ => ?_)
  have e : idx_main_v25 (ix2 b m) k = ix3 k b m :=
    funext fun a => by match a with | ⟨0, _⟩ => rfl | ⟨1, _⟩ => rfl | ⟨2, _⟩ => rfl
  rw [e, val_main_v24_apply, val_main_v22_apply, val_main_v21_apply, val_main_v19_apply, val_main_v20_apply,
    val_main_v23_apply, val_main_cst_0_apply, layer3_apply]
  exact select_diag k m _

/-- THE REFERENCE'S RUN with its result stated as `result` of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
        = result (rows (m ((c.tc : Thread nD τ).loc main_arg0))) (weights (m ((c.tc : Thread nD τ).loc main_arg1)))
            (weights (m ((c.tc : Thread nD τ).loc main_arg2))) (weights (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v25_eq _ _ _ _).trans (ref_result _ _ _ _)), (h c).2⟩)
    (Cert.ReferenceIdeal.Value.run (F := Ideal) m ρ)

end Cert.ReferenceIdeal.Column

end
-- ==== Proof.lean ====
/-
  The certificate's claims for the per-node masked network, `f[b, i] = (tanh ∘ W₂ ∘ tanh ∘ W₁ ∘ tanh ∘ W₀) (x[b, :] with
  column i zeroed) [i]`, over x : [1024, 256] and three 256 × 256 weight matrices.

  The kernel walks the nodes sixteen to a grid step: for node `i` it multiplies the whole input block by the 0/1 row
  "lane ≠ i", runs the three matrix products (against the transposed weights the host hands it, into zero accumulators)
  with `tanh` after each, and keeps output `i` by a lane sum against the one-hot row "lane = i"; the [256, 1024] array of
  these columns is transposed by the host. The reference builds all 256 masked copies at once, applies the three layers
  as `dot_general`s over the [256, 1024, 256] array, and keeps the diagonal `h[i, b, i]` by a select summed over `i`.

  On the extended reals both are `NodeColumn.result` of the arguments: the changes of float format are the identity, a
  matrix product into a zero accumulator and a `dot_general` are the same sums, and each side's way of keeping output `i`
  is a sum with one nonzero term (`y · 0 = 0` and `y · 1 = y` hold for every extended real, so the finiteness of the
  inputs is never used). Proof/NodeColumn.lean states the value and those two sums; Proof/KernelColumn.lean reads the
  kernel's stored block entry by entry, Proof/KernelArray.lean takes the blocks to the array and through the host's
  transposes (`Array.run`); Proof/RefColumn.lean reads the reference (`Column.run`). The two frames of the kernel are the
  frame runs of Proof/KernelFrame.lean and Proof/KernelIdealFrame.lean; the reference's is its run with the result
  dropped; the ideal pass rewrote nothing, so `preserves` has nothing to state.
-/
import proofs.«164787_j57896159150711_1_alg».proof.Defs
import proofs.«164787_j57896159150711_1_alg».proof.Proof.Gen.Kernel
import proofs.«164787_j57896159150711_1_alg».proof.Proof.Gen.KernelIdeal
import proofs.«164787_j57896159150711_1_alg».proof.Proof.Gen.ReferenceIdeal
import proofs.«164787_j57896159150711_1_alg».proof.Proof.Gen.Pre_finite_inputs
import proofs.«164787_j57896159150711_1_alg».proof.Proof.KernelFrame
import proofs.«164787_j57896159150711_1_alg».proof.Proof.KernelIdealFrame
import proofs.«164787_j57896159150711_1_alg».proof.Proof.KernelArray
import proofs.«164787_j57896159150711_1_alg».proof.Proof.RefColumn
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.Column.run m ρ)

/-- The ideal pass rewrote no operation. -/
theorem preserves : Cert.preserves_Kernel_KernelIdeal := trivial

/-- From memories that agree on the arguments both programs end with `NodeColumn.result` of those arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Column.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
